-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256x7 : Shape := ⟨2, ![256, 7]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256x7 : S_.BroadcastsInDim S256x7 (![] : Fin 0 → Fin S256x7.rank)
  reducesTo_S256x7_S_d0_1 : S256x7.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S64x256x56x56 .f32) (main_arg1 : FVec F S256x7 .f32) (main_arg2 : FVec F S256 .f32) (main_arg3 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256x7 .f32 := Host.absf main_arg1
  let main_cst_0 : FVec F S_ .f32 := constant S_ .f32 0x7F800000#32
  let main_v5 : FVec F S256x7 .f32 := broadcastInDim S256x7 ![] bcast_S_S256x7 main_cst_0
  let main_v6 : IVec S256x7 1 := cmpf .olt main_v4 main_v5
  let main_c_1 : IVec S_ 1 := constantI S_ 1 1#1
  let main_v7 : IVec S_ 1 := (fun x v => Host.reduce IntOp.andi x v reducesTo_S256x7_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S64x256x56x56 : Shape := ⟨4, ![64, 256, 56, 56]⟩
abbrev S256x7 : Shape := ⟨2, ![256, 7]⟩
abbrev S256 : Shape := ⟨1, ![256]⟩
abbrev S256x1 : Shape := ⟨2, ![256, 1]⟩
abbrev S256x6 : Shape := ⟨2, ![256, 6]⟩
abbrev S256x8 : Shape := ⟨2, ![256, 8]⟩
abbrev S8x256 : Shape := ⟨2, ![8, 256]⟩
abbrev S8x256x1x1 : Shape := ⟨4, ![8, 256, 1, 1]⟩
abbrev S1x256x56x56 : Shape := ⟨4, ![1, 256, 56, 56]⟩
abbrev S1x256x1x1 : Shape := ⟨4, ![1, 256, 1, 1]⟩
abbrev S256x1x1 : Shape := ⟨3, ![256, 1, 1]⟩

abbrev nBuf : Space → Nat
  | .hbm => 20
  | .vmem => 6
  | .smem => 0
  | _ => 0

abbrev bufTy : (tb : Table) → Fin (tcTables nBuf tb) → BufTy
  | .hbm, ⟨0, _⟩ => ⟨S64x256x56x56, .f32⟩
  | .hbm, ⟨1, _⟩ => ⟨S256x7, .f32⟩
  | .hbm, ⟨2, _⟩ => ⟨S256, .f32⟩
  | .hbm, ⟨3, _⟩ => ⟨S256, .f32⟩
  | .hbm, ⟨4, _⟩ => ⟨S256x1, .f32⟩
  | .hbm, ⟨5, _⟩ => ⟨S256x6, .f32⟩
  | .hbm, ⟨6, _⟩ => ⟨S256x6, .f32⟩
  | .hbm, ⟨7, _⟩ => ⟨S256x6, .f32⟩
  | .hbm, ⟨8, _⟩ => ⟨S256x1, .f32⟩
  | .hbm, ⟨9, _⟩ => ⟨S256x8, .f32⟩
  | .hbm, ⟨10, _⟩ => ⟨S256x1, .f32⟩
  | .hbm, ⟨11, _⟩ => ⟨S256, .f32⟩
  | .hbm, ⟨12, _⟩ => ⟨S256, .f32⟩
  | .hbm, ⟨13, _⟩ => ⟨S256x1, .f32⟩
  | .hbm, ⟨14, _⟩ => ⟨S256x8, .f32⟩
  | .hbm, ⟨15, _⟩ => ⟨S8x256, .f32⟩
  | .hbm, ⟨16, _⟩ => ⟨S8x256x1x1, .f32⟩
  | .hbm, ⟨17, _⟩ => ⟨S8x256, .f32⟩
  | .hbm, ⟨18, _⟩ => ⟨S8x256x1x1, .f32⟩
  | .hbm, ⟨19, _⟩ => ⟨S64x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S8x256x1x1, .f32⟩
  | .local _ .vmem, ⟨3, _⟩ => ⟨S8x256x1x1, .f32⟩
  | .local _ .vmem, ⟨4, _⟩ => ⟨S1x256x56x56, .f32⟩
  | .local _ .vmem, ⟨5, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S256_S256x1_0 : S256.BroadcastsInDim S256x1 (![0] : Fin 1 → Fin S256x1.rank)
  slices_S256x7_S256x6_0_1 : S256x7.Slices ![0, 1] S256x6
  slices_S256x7_S256x6_0_0 : S256x7.Slices ![0, 0] S256x6
  concatenates_S256x1_S256x6_S256x1_S256x8_d1 : Shape.Concatenates [S256x1, S256x6, S256x1] S256x8 1
  slices_S256x7_S256x1_0_0 : S256x7.Slices ![0, 0] S256x1
  shapeCasts_S256x1_S256 : S256x1.ShapeCasts S256
  concatenates_S256x1_S256x7_S256x8_d1 : Shape.Concatenates [S256x1, S256x7] S256x8 1
  transposes_S256x8_S8x256_1_0 : S256x8.Transposes [1, 0] S8x256
  shapeCasts_S8x256_S8x256x1x1 : S8x256.ShapeCasts S8x256x1x1
  inb_S1x256x56x56_S1x256x56x56_0_0_0_0 : ∀ a, (![0, 0, 0, 0] : Fin 4 → Nat) a + S1x256x56x56.size a ≤ S1x256x56x56.size a
  h_S1x256x56x56 : 0 < S1x256x56x56.numel
  inb_S8x256x1x1_S8x256x1x1_0_0_0_0 : ∀ a, (![0, 0, 0, 0] : Fin 4 → Nat) a + S8x256x1x1.size a ≤ S8x256x1x1.size a
  h_S8x256x1x1 : 0 < S8x256x1x1.numel
  shapeCasts_S8x256x1x1_S8x256x1x1 : S8x256x1x1.ShapeCasts S8x256x1x1
  slices_S8x256x1x1_o0_0_0_0_S1x256x1x1 : S8x256x1x1.Slices ![0, 0, 0, 0] S1x256x1x1
  shapeCasts_S1x256x1x1_S256x1x1 : S1x256x1x1.ShapeCasts S256x1x1
  shapeCasts_S256x1x1_S1x256x1x1 : S256x1x1.ShapeCasts S1x256x1x1
  broadcasts_S1x256x1x1_S1x256x56x56 : S1x256x1x1.Broadcasts S1x256x56x56
  slices_S8x256x1x1_o1_0_0_0_S1x256x1x1 : S8x256x1x1.Slices ![1, 0, 0, 0] S1x256x1x1
  slices_S8x256x1x1_o2_0_0_0_S1x256x1x1 : S8x256x1x1.Slices ![2, 0, 0, 0] S1x256x1x1
  slices_S8x256x1x1_o3_0_0_0_S1x256x1x1 : S8x256x1x1.Slices ![3, 0, 0, 0] S1x256x1x1
  slices_S8x256x1x1_o4_0_0_0_S1x256x1x1 : S8x256x1x1.Slices ![4, 0, 0, 0] S1x256x1x1
  slices_S8x256x1x1_o5_0_0_0_S1x256x1x1 : S8x256x1x1.Slices ![5, 0, 0, 0] S1x256x1x1
  slices_S8x256x1x1_o6_0_0_0_S1x256x1x1 : S8x256x1x1.Slices ![6, 0, 0, 0] S1x256x1x1
  slices_S8x256x1x1_o7_0_0_0_S1x256x1x1 : S8x256x1x1.Slices ![7, 0, 0, 0] S1x256x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S64x256x56x56.size a
  hwx0_0 : ∀ i : grid0.Coords, EltTy.bits .f32 = 32 ∨ (Rect.block (s := S64x256x56x56) S1x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x1x1.size a ≤ S8x256x1x1.size a
  hwx0_1 : ∀ i : grid0.Coords, EltTy.bits .f32 = 32 ∨ (Rect.block (s := S8x256x1x1) S8x256x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256x1x1.size a ≤ S8x256x1x1.size a
  hwx0_2 : ∀ i : grid0.Coords, EltTy.bits .f32 = 32 ∨ (Rect.block (s := S8x256x1x1) S8x256x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x56x56.size a ≤ S64x256x56x56.size a
  hwx0_3 : ∀ i : grid0.Coords, EltTy.bits .f32 = 32 ∨ (Rect.block (s := S64x256x56x56) S1x256x56x56.size (cc0_transform_3 i) (hinb0_3 i)).WholeWords (EltTy.packing .f32)

variable [Facts₀]

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8x256x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8x256x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256x7 : Shape := ⟨2, ![256, 7]⟩
abbrev S256 : Shape := ⟨1, ![256]⟩
abbrev S_ : Shape := ⟨0, ![]⟩
abbrev S256x1 : Shape := ⟨2, ![256, 1]⟩
abbrev S256x6 : Shape := ⟨2, ![256, 6]⟩
abbrev S256x8 : Shape := ⟨2, ![256, 8]⟩
abbrev S1x256x1x1 : Shape := ⟨4, ![1, 256, 1, 1]⟩
abbrev S64x256x56x56x1 : Shape := ⟨5, ![64, 256, 56, 56, 1]⟩
abbrev S64x256x56x56x2 : Shape := ⟨5, ![64, 256, 56, 56, 2]⟩

abbrev nBuf : Space → Nat
  | .hbm => 74
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256x7, .f32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S64x256x56x56, .f32⟩
  | .hbm, ⟨6, _⟩ => ⟨S64x256x56x56, .f32⟩
  | .hbm, ⟨7, _⟩ => ⟨S_, .f32⟩
  | .hbm, ⟨8, _⟩ => ⟨S64x256x56x56, .f32⟩
  | .hbm, ⟨9, _⟩ => ⟨S64x256x56x56, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x256x56x56, .f32⟩
  | .hbm, ⟨14, _⟩ => ⟨S64x256x56x56, .f32⟩
  | .hbm, ⟨15, _⟩ => ⟨S_, .f32⟩
  | .hbm, ⟨16, _⟩ => ⟨S64x256x56x56, .f32⟩
  | .hbm, ⟨17, _⟩ => ⟨S64x256x56x56, .f32⟩
  | .hbm, ⟨18, _⟩ => ⟨S64x256x56x56, .i32⟩
  | .hbm, ⟨19, _⟩ => ⟨S64x256x56x56, .f32⟩
  | .hbm, ⟨20, _⟩ => ⟨S64x256x56x56, .f32⟩
  | .hbm, ⟨21, _⟩ => ⟨S256x1, .f32⟩
  | .hbm, ⟨22, _⟩ => ⟨S256x6, .f32⟩
  | .hbm, ⟨23, _⟩ => ⟨S256x6, .f32⟩
  | .hbm, ⟨24, _⟩ => ⟨S256x6, .f32⟩
  | .hbm, ⟨25, _⟩ => ⟨S256x1, .f32⟩
  | .hbm, ⟨26, _⟩ => ⟨S256x8, .f32⟩
  | .hbm, ⟨27, _⟩ => ⟨S256x1, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256x8, .f32⟩
  | .hbm, ⟨32, _⟩ => ⟨S256, .i32⟩
  | .hbm, ⟨33, _⟩ => ⟨S1x256x1x1, .i32⟩
  | .hbm, ⟨34, _⟩ => ⟨S_, .i32⟩
  | .hbm, ⟨35, _⟩ => ⟨S1x256x1x1, .i32⟩
  | .hbm, ⟨36, _⟩ => ⟨S1x256x1x1, .i1⟩
  | .hbm, ⟨37, _⟩ => ⟨S_, .i32⟩
  | .hbm, ⟨38, _⟩ => ⟨S1x256x1x1, .i32⟩
  | .hbm, ⟨39, _⟩ => ⟨S1x256x1x1, .i32⟩
  | .hbm, ⟨40, _⟩ => ⟨S1x256x1x1, .i32⟩
  | .hbm, ⟨41, _⟩ => ⟨S_, .i32⟩
  | .hbm, ⟨42, _⟩ => ⟨S64x256x56x56, .i32⟩
  | .hbm, ⟨43, _⟩ => ⟨S64x256x56x56, .i1⟩
  | .hbm, ⟨44, _⟩ => ⟨S_, .i32⟩
  | .hbm, ⟨45, _⟩ => ⟨S64x256x56x56, .i32⟩
  | .hbm, ⟨46, _⟩ => ⟨S64x256x56x56, .i32⟩
  | .hbm, ⟨47, _⟩ => ⟨S64x256x56x56, .i32⟩
  | .hbm, ⟨48, _⟩ => ⟨S64x256x56x56, .i32⟩
  | .hbm, ⟨49, _⟩ => ⟨S64x256x56x56x1, .i32⟩
  | .hbm, ⟨50, _⟩ => ⟨S64x256x56x56x1, .i32⟩
  | .hbm, ⟨51, _⟩ => ⟨S64x256x56x56x2, .i32⟩
  | .hbm, ⟨52, _⟩ => ⟨S64x256x56x56, .f32⟩
  | .hbm, ⟨53, _⟩ => ⟨S_, .i32⟩
  | .hbm, ⟨54, _⟩ => ⟨S1x256x1x1, .i32⟩
  | .hbm, ⟨55, _⟩ => ⟨S1x256x1x1, .i1⟩
  | .hbm, ⟨56, _⟩ => ⟨S_, .i32⟩
  | .hbm, ⟨57, _⟩ => ⟨S1x256x1x1, .i32⟩
  | .hbm, ⟨58, _⟩ => ⟨S1x256x1x1, .i32⟩
  | .hbm, ⟨59, _⟩ => ⟨S1x256x1x1, .i32⟩
  | .hbm, ⟨60, _⟩ => ⟨S_, .i32⟩
  | .hbm, ⟨61, _⟩ => ⟨S64x256x56x56, .i32⟩
  | .hbm, ⟨62, _⟩ => ⟨S64x256x56x56, .i1⟩
  | .hbm, ⟨63, _⟩ => ⟨S_, .i32⟩
  | .hbm, ⟨64, _⟩ => ⟨S64x256x56x56, .i32⟩
  | .hbm, ⟨65, _⟩ => ⟨S64x256x56x56, .i32⟩
  | .hbm, ⟨66, _⟩ => ⟨S64x256x56x56, .i32⟩
  | .hbm, ⟨67, _⟩ => ⟨S64x256x56x56, .i32⟩
  | .hbm, ⟨68, _⟩ => ⟨S64x256x56x56x1, .i32⟩
  | .hbm, ⟨69, _⟩ => ⟨S64x256x56x56x1, .i32⟩
  | .hbm, ⟨70, _⟩ => ⟨S64x256x56x56x2, .i32⟩
  | .hbm, ⟨71, _⟩ => ⟨S64x256x56x56, .f32⟩
  | .hbm, ⟨72, _⟩ => ⟨S64x256x56x56, .f32⟩
  | .hbm, ⟨73, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S64x256x56x56 : S_.BroadcastsInDim S64x256x56x56 (![] : Fin 0 → Fin S64x256x56x56.rank)
  bcast_S256_S256x1_0 : S256.BroadcastsInDim S256x1 (![0] : Fin 1 → Fin S256x1.rank)
  slices_S256x7_S256x6_0_1 : S256x7.Slices ![0, 1] S256x6
  slices_S256x7_S256x6_0_0 : S256x7.Slices ![0, 0] S256x6
  concatenates_S256x1_S256x6_S256x1_S256x8_d1 : Shape.Concatenates [S256x1, S256x6, S256x1] S256x8 1
  slices_S256x7_S256x1_0_0 : S256x7.Slices ![0, 0] S256x1
  shapeCasts_S256x1_S256 : S256x1.ShapeCasts S256
  concatenates_S256x1_S256x7_S256x8_d1 : Shape.Concatenates [S256x1, S256x7] S256x8 1
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S64x256x56x56_0_1_2_3 : S1x256x1x1.BroadcastsInDim S64x256x56x56 (![0, 1, 2, 3] : Fin 4 → Fin S64x256x56x56.rank)
  bcast_S64x256x56x56_S64x256x56x56x1_0_1_2_3 : S64x256x56x56.BroadcastsInDim S64x256x56x56x1 (![0, 1, 2, 3] : Fin 4 → Fin S64x256x56x56x1.rank)
  concatenates_S64x256x56x56x1_S64x256x56x56x1_S64x256x56x56x2_d4 : Shape.Concatenates [S64x256x56x56x1, S64x256x56x56x1] S64x256x56x56x2 4
  gather_S256x8_S64x256x56x56x2_S64x256x56x56_n_01_n_n_01_4_11_wf : GatherDims.WF S256x8 S64x256x56x56x2 S64x256x56x56 [] [0, 1] [] [0, 1] [] 4 ![1, 1]

variable [Facts₀]

def gather_S256x8_S64x256x56x56x2_S64x256x56x56_n_01_n_n_01_4_11 : GatherDims S256x8 S64x256x56x56x2 S64x256x56x56 where
  offsetDims := []
  collapsedSliceDims := [0, 1]
  operandBatchingDims := []
  startIndicesBatchingDims := []
  startIndexMap := [0, 1]
  indexVectorDim := 4
  sliceSizes := ![1, 1]
  wf := gather_S256x8_S64x256x56x56x2_S64x256x56x56_n_01_n_n_01_4_11_wf

class Facts : Prop extends Facts₀ where

variable [Facts]
-- ==== Proof.FrameKernel.lean ====
/-
  The frame of `Kernel`: @main is fifteen host operations that build the two per-channel tables (each
  transposed and reshaped to [8, 256, 1, 1]) followed by one pipelined region over the 64 images of the batch.
  At grid point t the body reads image t's block [1, 256, 56, 56] and both tables whole, and overwrites the
  output block with ONE store through the block's whole rectangle; it keeps nothing between points.  So the
  output's staging buffer after the body is a function `tile` of the three input blocks, every input buffer is left
  as found, and the run's post names every array: the result array block by block from `tile`, every other
  unscoped buffer as the region found it, the four arguments among them (no host operation writes an argument).
  Everything here holds at any float instance.
-/
import proofs.«115810_j4973572129165_1_alg».proof.Proof.Gen.Kernel.Launch
import proofs.«115810_j4973572129165_1_alg».proof.Proof.Gen.Kernel.Skeleton
import proofs.«115810_j4973572129165_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pwl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is the result of no host operation, so the region finds it as launched. -/
theorem V_arg (c : Dev nD) (a : Ref sig .tc) (ha : a = main_arg0 ∨ a = main_arg1 ∨ a = main_arg2 ∨ a = main_arg3) :
    V m c a = m ((c : Thread nD τ).loc a) := by
  rcases ha with rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point — where the point fetches it, and where
    it does not (the tables are fetched once: their block index never moves) — for any proof data over the
    region-entry arrays whose body leaves the input in place.  Stated window by window: a window's block shape is a
    literal only at a literal window. -/
theorem before_img_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_points_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_slopes_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-! ## The frame claim's post from the run's -/

/-- The four arguments are staged by window 0 (the image batch) or by no window (the three parameter arrays): a
    state satisfying the run's post has each at its region-entry contents, which are its launch contents. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(((h c).1 0).trans (((dats 0 c).arrAt_in 0 rfl _).trans (hA c 0))).trans (V_arg m c main_arg0 (.inl rfl)),
   ((h c).2 main_arg1 (Pipeline.mem_restRefs_of main_arg1 (by decide) (by decide))).trans (V_arg m c main_arg1 (.inr (.inl rfl))),
   ((h c).2 main_arg2 (Pipeline.mem_restRefs_of main_arg2 (by decide) (by decide))).trans (V_arg m c main_arg2 (.inr (.inr (.inl rfl)))),
   ((h c).2 main_arg3 (Pipeline.mem_restRefs_of main_arg3 (by decide) (by decide))).trans (V_arg m c main_arg3 (.inr (.inr (.inr rfl))))⟩

/-- So a run to that post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## What the body leaves in the output block -/

/-- The whole rectangle of an image block, and of a table. -/
abbrev imgRect : Rect S1x256x56x56 := Rect.unit (s := S1x256x56x56) ![0, 0, 0, 0] S1x256x56x56.size inb_S1x256x56x56_S1x256x56x56_0_0_0_0
abbrev tblRect : Rect S8x256x1x1 := Rect.unit (s := S8x256x1x1) ![0, 0, 0, 0] S8x256x1x1.size inb_S8x256x1x1_S8x256x1x1_0_0_0_0

/-- The body's arithmetic as one term of the three loaded blocks: the region number of every pixel, its offset inside
    the region, the two eight-way selections from the tables, and `left point + offset · slope`. -/
def pixelwise (x : Vec F S1x256x56x56 .f32) (fp df : Vec F S8x256x1x1 .f32) : Vec F S1x256x56x56 .f32 :=
  k0_pay1 (k0_pay3 x) (k0_pay4 x) (k0_pay5 fp) (k0_pay6 df)
    (k0_pay16 (k0_pay3 x) (k0_pay5 fp) (k0_pay10 x fp))
    (k0_pay17 (k0_pay3 x) (k0_pay6 df) (k0_pay8 x df) (k0_pay9 x) (k0_pay11 df))
    (k0_pay18 (k0_pay3 x)) (k0_pay19 (k0_pay5 fp))

/-- The output's staging buffer after the body: its one store, through the whole rectangle. -/
def tile (x : Vec F S1x256x56x56 .f32) (fp df : Vec F S8x256x1x1 .f32) : Vec F S1x256x56x56 .f32 :=
  View.canon [⟨imgRect, pixelwise (View.ld x imgRect) (View.ld fp tblRect) (View.ld df tblRect)⟩]

/-- That store covers the block. -/
theorem tile_cover (p : Vec F S1x256x56x56 .f32) (y : S1x256x56x56.Idx) :
    ∃ pc ∈ ([⟨imgRect, p⟩] : List (View.Piece (Elt F) S1x256x56x56 .f32)), y ∈ pc.1.set :=
  View.cover_of_tiled [⟨imgRect, p⟩] S1x256x56x56.size (by rfl) y

/-! ## The body's triple -/

set_option maxHeartbeats 4000000 in
/-- On whole staging buffers — the three inputs' at contents `x`, `fp`, `df`, the output's at anything — the body runs
    to a state with the inputs' as they were and the output's at `tile x fp df`. -/
theorem sound_kernel (c : Dev nD) (E : Set ℕ) (i : grid0.Coords) (arg1 : Memref sig .tc .vmem S1x256x56x56 .f32) (harg1 : arg1.IsWhole)
    (arg2 : Memref sig .tc .vmem S8x256x1x1 .f32) (harg2 : arg2.IsWhole) (arg3 : Memref sig .tc .vmem S8x256x1x1 .f32) (harg3 : arg3.IsWhole)
    (arg4 : Memref sig .tc .vmem S1x256x56x56 .f32) (harg4 : arg4.IsWhole)
    (x : Vec F S1x256x56x56 .f32) (fp df : Vec F S8x256x1x1 .f32) (K : PUnit → sProp 𝕄) :
    iprop(owns (c : Thread nD τ) arg1 fullShare x ∗ owns (c : Thread nD τ) arg2 fullShare fp ∗ owns (c : Thread nD τ) arg3 fullShare df
        ∗ (∃ d, owns (c : Thread nD τ) arg4 fullShare d)
        ∗ (iprop(owns (c : Thread nD τ) arg1 fullShare x ∗ owns (c : Thread nD τ) arg2 fullShare fp ∗ owns (c : Thread nD τ) arg3 fullShare df
            ∗ owns (c : Thread nD τ) arg4 fullShare (tile x fp df)) -∗ K ⟨⟩))
      ⊢ wp frame (wpE (defs₀ (F := F)) Variants.none c none) E (cc0__pwlu_kernel i arg1 harg1 arg2 harg2 arg3 harg3 arg4 harg4) K := by
  simp only [cc0__pwlu_kernel_eq_skeleton]; unfold cc0__pwlu_kernel_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (tile_cover _)

/-! ## The pipeline's proof data -/

/-- On core `c`: the arrays as the region finds them; after the body at point `t` each input buffer at its block and the
    output's at `tile` of the three input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = tile (iblk m c 0 t) (iblk m c 1 t) (iblk m c 2 t) := by dsimp only [dats]

theorem before_0 (c : Dev nD) (t : Fin cfg0.N) (d) : (dats m 0 c).before 0 t d = iblk m c 0 t :=
  before_img_of m (dats m 0 c) (A_eq m c 0) (after_0 m c) t d
theorem before_1 (c : Dev nD) (t : Fin cfg0.N) (d) : (dats m 0 c).before 1 t d = iblk m c 1 t :=
  before_points_of m (dats m 0 c) (A_eq m c 1) (after_1 m c) t d
theorem before_2 (c : Dev nD) (t : Fin cfg0.N) (d) : (dats m 0 c).before 2 t d = iblk m c 2 t :=
  before_slopes_of m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Pwl

end
-- ==== Proof.FrameKernelIdeal.lean ====
/-
  The frame of `KernelIdeal`: @main is fifteen host operations that build the two per-channel tables (each
  transposed and reshaped to [8, 256, 1, 1]) followed by one pipelined region over the 64 images of the batch.
  At grid point t the body reads image t's block [1, 256, 56, 56] and both tables whole, and overwrites the
  output block with ONE store through the block's whole rectangle; it keeps nothing between points.  So the
  output's staging buffer after the body is a function `tile` of the three input blocks, every input buffer is left
  as found, and the run's post names every array: the result array block by block from `tile`, every other
  unscoped buffer as the region found it, the four arguments among them (no host operation writes an argument).
  Everything here holds at any float instance.
-/
import proofs.«115810_j4973572129165_1_alg».proof.Proof.Gen.KernelIdeal.Launch
import proofs.«115810_j4973572129165_1_alg».proof.Proof.Gen.KernelIdeal.Skeleton
import proofs.«115810_j4973572129165_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pwl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the fifteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is the result of no host operation, so the region finds it as launched. -/
theorem V_arg (c : Dev nD) (a : Ref sig .tc) (ha : a = main_arg0 ∨ a = main_arg1 ∨ a = main_arg2 ∨ a = main_arg3) :
    V m c a = m ((c : Thread nD τ).loc a) := by
  rcases ha with rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point — where the point fetches it, and where
    it does not (the tables are fetched once: their block index never moves) — for any proof data over the
    region-entry arrays whose body leaves the input in place.  Stated window by window: a window's block shape is a
    literal only at a literal window. -/
theorem before_img_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_points_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_slopes_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-! ## The frame claim's post from the run's -/

/-- The four arguments are staged by window 0 (the image batch) or by no window (the three parameter arrays): a
    state satisfying the run's post has each at its region-entry contents, which are its launch contents. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(((h c).1 0).trans (((dats 0 c).arrAt_in 0 rfl _).trans (hA c 0))).trans (V_arg m c main_arg0 (.inl rfl)),
   ((h c).2 main_arg1 (Pipeline.mem_restRefs_of main_arg1 (by decide) (by decide))).trans (V_arg m c main_arg1 (.inr (.inl rfl))),
   ((h c).2 main_arg2 (Pipeline.mem_restRefs_of main_arg2 (by decide) (by decide))).trans (V_arg m c main_arg2 (.inr (.inr (.inl rfl)))),
   ((h c).2 main_arg3 (Pipeline.mem_restRefs_of main_arg3 (by decide) (by decide))).trans (V_arg m c main_arg3 (.inr (.inr (.inr rfl))))⟩

/-- So a run to that post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

/-! ## What the body leaves in the output block -/

/-- The whole rectangle of an image block, and of a table. -/
abbrev imgRect : Rect S1x256x56x56 := Rect.unit (s := S1x256x56x56) ![0, 0, 0, 0] S1x256x56x56.size inb_S1x256x56x56_S1x256x56x56_0_0_0_0
abbrev tblRect : Rect S8x256x1x1 := Rect.unit (s := S8x256x1x1) ![0, 0, 0, 0] S8x256x1x1.size inb_S8x256x1x1_S8x256x1x1_0_0_0_0

/-- The body's arithmetic as one term of the three loaded blocks: the region number of every pixel, its offset inside
    the region, the two eight-way selections from the tables, and `left point + offset · slope`. -/
def pixelwise (x : Vec F S1x256x56x56 .f32) (fp df : Vec F S8x256x1x1 .f32) : Vec F S1x256x56x56 .f32 :=
  k0_pay1 (k0_pay3 x) (k0_pay4 x) (k0_pay5 fp) (k0_pay6 df)
    (k0_pay16 (k0_pay3 x) (k0_pay5 fp) (k0_pay10 x fp))
    (k0_pay17 (k0_pay3 x) (k0_pay6 df) (k0_pay8 x df) (k0_pay9 x) (k0_pay11 df))
    (k0_pay18 (k0_pay3 x)) (k0_pay19 (k0_pay5 fp))

/-- The output's staging buffer after the body: its one store, through the whole rectangle. -/
def tile (x : Vec F S1x256x56x56 .f32) (fp df : Vec F S8x256x1x1 .f32) : Vec F S1x256x56x56 .f32 :=
  View.canon [⟨imgRect, pixelwise (View.ld x imgRect) (View.ld fp tblRect) (View.ld df tblRect)⟩]

/-- That store covers the block. -/
theorem tile_cover (p : Vec F S1x256x56x56 .f32) (y : S1x256x56x56.Idx) :
    ∃ pc ∈ ([⟨imgRect, p⟩] : List (View.Piece (Elt F) S1x256x56x56 .f32)), y ∈ pc.1.set :=
  View.cover_of_tiled [⟨imgRect, p⟩] S1x256x56x56.size (by rfl) y

/-! ## The body's triple -/

set_option maxHeartbeats 4000000 in
/-- On whole staging buffers — the three inputs' at contents `x`, `fp`, `df`, the output's at anything — the body runs
    to a state with the inputs' as they were and the output's at `tile x fp df`. -/
theorem sound_kernel (c : Dev nD) (E : Set ℕ) (i : grid0.Coords) (arg1 : Memref sig .tc .vmem S1x256x56x56 .f32) (harg1 : arg1.IsWhole)
    (arg2 : Memref sig .tc .vmem S8x256x1x1 .f32) (harg2 : arg2.IsWhole) (arg3 : Memref sig .tc .vmem S8x256x1x1 .f32) (harg3 : arg3.IsWhole)
    (arg4 : Memref sig .tc .vmem S1x256x56x56 .f32) (harg4 : arg4.IsWhole)
    (x : Vec F S1x256x56x56 .f32) (fp df : Vec F S8x256x1x1 .f32) (K : PUnit → sProp 𝕄) :
    iprop(owns (c : Thread nD τ) arg1 fullShare x ∗ owns (c : Thread nD τ) arg2 fullShare fp ∗ owns (c : Thread nD τ) arg3 fullShare df
        ∗ (∃ d, owns (c : Thread nD τ) arg4 fullShare d)
        ∗ (iprop(owns (c : Thread nD τ) arg1 fullShare x ∗ owns (c : Thread nD τ) arg2 fullShare fp ∗ owns (c : Thread nD τ) arg3 fullShare df
            ∗ owns (c : Thread nD τ) arg4 fullShare (tile x fp df)) -∗ K ⟨⟩))
      ⊢ wp frame (wpE (defs₀ (F := F)) Variants.none c none) E (cc0__pwlu_kernel i arg1 harg1 arg2 harg2 arg3 harg3 arg4 harg4) K := by
  simp only [cc0__pwlu_kernel_eq_skeleton]; unfold cc0__pwlu_kernel_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (tile_cover _)

/-! ## The pipeline's proof data -/

/-- On core `c`: the arrays as the region finds them; after the body at point `t` each input buffer at its block and the
    output's at `tile` of the three input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = tile (iblk m c 0 t) (iblk m c 1 t) (iblk m c 2 t) := by dsimp only [dats]

theorem before_0 (c : Dev nD) (t : Fin cfg0.N) (d) : (dats m 0 c).before 0 t d = iblk m c 0 t :=
  before_img_of m (dats m 0 c) (A_eq m c 0) (after_0 m c) t d
theorem before_1 (c : Dev nD) (t : Fin cfg0.N) (d) : (dats m 0 c).before 1 t d = iblk m c 1 t :=
  before_points_of m (dats m 0 c) (A_eq m c 1) (after_1 m c) t d
theorem before_2 (c : Dev nD) (t : Fin cfg0.N) (d) : (dats m 0 c).before 2 t d = iblk m c 2 t :=
  before_slopes_of m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Pwl

end
-- ==== Proof.Spec.lean ====
/-
  The piecewise-linear unit on one pixel, and the facts both programs' lookups rest on.

  A pixel value x is normalised to t = (x - a) / l (a, l the two words the programs share), clipped into
  [0, 7.007] and truncated to an integer region number n; since the clipped value is a real number in [0, 8), n is
  one of 0, …, 7 whatever x is (an infinite x included).  The result is P n + (t - n) · S n for the pixel's
  channel rows P (left points) and S (slopes) of two 256 × 8 tables.

  The kernel finds row entry n by eight selections "if n = r then row r else what was selected before", starting from
  zero: with n among 0, …, 7 exactly one test succeeds (`chain_ofNat`).  The reference gathers at the pair
  (channel, n), each component first wrapped (a negative index has the extent added) and then clamped into the
  table: on a channel below 256 and a region below 8 both steps change nothing (`wrap_region`, `wrap_channel`), and
  the gather reads the table at exactly that pair (`gather_pair_apply`).
-/
import Idealize.ShloMosaic.PureOps.Ideal
import Idealize.ShloMosaic.PureOps.ShapeOps
import Idealize.ShloMosaic.Lib.ValueIdx

noncomputable section

namespace Cert.Pwl

open Idealize.ShloMosaic Idealize.ShloMosaic.ValueIdx

/-! ## One pixel -/

/-- The normalised coordinate (x - a) / l. -/
def xnorm (x : EReal) : EReal :=
  Ideal.div (x - Ideal.ofBits .f32 0xC0444444#32) (Ideal.ofBits .f32 0x3F444444#32)

/-- The clip into [0, 7.007]. -/
def clip (y : EReal) : EReal :=
  min (Ideal.ofBits .f32 0x40E03958#32) (max (Ideal.ofBits .f32 0x00000000#32) y)

/-- The region number, as the 32-bit word both programs compute. -/
def region (x : EReal) : BitVec 32 := Ideal.fptosi 32 (clip (xnorm x))

/-- Eight selections over a row: entry r where the word is r, from zero. -/
def chain (n : BitVec 32) (T : Fin 8 → EReal) : EReal :=
  Scalar.select (IntOp.cmpi .eq n 7#32) (T 7) <|
  Scalar.select (IntOp.cmpi .eq n 6#32) (T 6) <|
  Scalar.select (IntOp.cmpi .eq n 5#32) (T 5) <|
  Scalar.select (IntOp.cmpi .eq n 4#32) (T 4) <|
  Scalar.select (IntOp.cmpi .eq n 3#32) (T 3) <|
  Scalar.select (IntOp.cmpi .eq n 2#32) (T 2) <|
  Scalar.select (IntOp.cmpi .eq n 1#32) (T 1) <|
  Scalar.select (IntOp.cmpi .eq n 0#32) (T 0) (Ideal.ofBits .f32 0x00000000#32)

/-- The unit on one pixel: left point plus offset times slope, both looked up at the pixel's region. -/
def pwlu (x : EReal) (P S : Fin 8 → EReal) : EReal :=
  chain (region x) P + (xnorm x - (((region x).toInt : ℝ) : EReal)) * chain (region x) S

/-- The upper clip bound's word is the rational 1836843 / 262144 (a little above 7.0069). -/
theorem hi_val : Ideal.ofBits .f32 0x40E03958#32 = ((1836843 / 262144 : ℝ) : EReal) := by
  simp [Ideal.ofBits, Ideal.ieee, -EReal.coe_mul]; norm_num

/-- The lower clip bound's word is zero. -/
theorem lo_val : Ideal.ofBits .f32 0x00000000#32 = 0 := by simp [Ideal.ofBits, Ideal.ieee]

/-- Whatever y is, y clipped between 0 and a real bound q ≥ 0 is a real number in [0, q]. -/
theorem clip_real (q : ℝ) (hq : 0 ≤ q) (y : EReal) :
    ∃ r : ℝ, 0 ≤ r ∧ r ≤ q ∧ min (q : EReal) (max 0 y) = (r : EReal) := by
  have h0 : (0 : EReal) ≤ min (q : EReal) (max 0 y) := le_min (by exact_mod_cast hq) (le_max_left _ _)
  have h1 : min (q : EReal) (max 0 y) ≤ (q : EReal) := min_le_left _ _
  generalize min (q : EReal) (max 0 y) = z at h0 h1
  have hz_top : z ≠ ⊤ := ne_top_of_le_ne_top (EReal.coe_ne_top q) h1
  have hz_bot : z ≠ ⊥ := ne_bot_of_le_ne_bot (by simp) h0
  lift z to ℝ using ⟨hz_top, hz_bot⟩
  exact ⟨z, by exact_mod_cast h0, by exact_mod_cast h1, rfl⟩

/-- Truncating a real number in [0, 8) gives one of the words 0, …, 7. -/
theorem fptosi_lt8 (r : ℝ) (h0 : 0 ≤ r) (h8 : r < 8) :
    ∃ k : Fin 8, Ideal.fptosi 32 (r : EReal) = BitVec.ofNat 32 k.val := by
  have hf0 : 0 ≤ ⌊r⌋ := Int.floor_nonneg.mpr h0
  have hf8 : ⌊r⌋ < 8 := Int.floor_lt.mpr (by exact_mod_cast h8)
  refine ⟨⟨⌊r⌋.toNat, by omega⟩, ?_⟩
  unfold Ideal.fptosi
  rw [Ideal.toIntClamped_coe, if_pos h0]
  have e : max (-((2 ^ (32 - 1) : Nat) : Int)) (min (((2 ^ (32 - 1) : Nat) : Int) - 1) ⌊r⌋) = ((⌊r⌋.toNat : Nat) : Int) := by
    rw [min_eq_right (by norm_num; omega), max_eq_right (by norm_num; omega)]
    exact (Int.toNat_of_nonneg hf0).symm
  rw [e]
  exact BitVec.ofInt_natCast _ _

/-- Every pixel's region number is one of the words 0, …, 7. -/
theorem region_lt8 (x : EReal) : ∃ k : Fin 8, region x = BitVec.ofNat 32 k.val := by
  unfold region clip
  rw [hi_val, lo_val]
  obtain ⟨r, h0, hq, e⟩ := clip_real (1836843 / 262144) (by norm_num) (xnorm x)
  rw [e]
  exact fptosi_lt8 r h0 (lt_of_le_of_lt hq (by norm_num))

/-- At the word k < 8 the eight selections leave entry k. -/
theorem chain_ofNat (k : Fin 8) (T : Fin 8 → EReal) : chain (BitVec.ofNat 32 k.val) T = T k := by
  fin_cases k <;> simp [chain, Scalar.select, IntOp.cmpi]

/-! ## The reference's index arithmetic -/

/-- jnp's index normalisation: a negative index has the extent added. -/
def wrap (n ext : BitVec 32) : BitVec 32 := Scalar.select (IntOp.cmpi .slt n 0#32) (IntOp.addi n ext) n

/-- A region number below 8 is not wrapped, and the gather's clamp into [0, 7] leaves it. -/
theorem wrap_region (k : Fin 8) : min (wrap (BitVec.ofNat 32 k.val) 8#32).toInt.toNat (8 - 1) = k.val := by
  revert k; decide

/-- A channel number below 256 is not wrapped, and the gather's clamp into [0, 255] leaves it. -/
theorem wrap_channel (c : Fin 256) : min (wrap (BitVec.ofNat 32 c.val) 256#32).toInt.toNat (256 - 1) = c.val := by
  revert c; decide +kernel

/-! ## The gather at a pair of indices -/

abbrev TblS : Shape := ⟨2, ![256, 8]⟩
abbrev ImgS : Shape := ⟨4, ![64, 256, 56, 56]⟩
abbrev PairS : Shape := ⟨5, ![64, 256, 56, 56, 2]⟩

/-- The dimension numbers of `table[channel, region]` over a batch of images: both table axes collapsed, the two start
    components along the last axis of the index array. -/
abbrev pairDims (wf : GatherDims.WF TblS PairS ImgS [] [0, 1] [] [0, 1] [] 4 ![1, 1]) : GatherDims TblS PairS ImgS where
  offsetDims := []
  collapsedSliceDims := [0, 1]
  operandBatchingDims := []
  startIndicesBatchingDims := []
  startIndexMap := [0, 1]
  indexVectorDim := 4
  sliceSizes := ![1, 1]
  wf := wf

/-- The index array's entry for result index j and component q. -/
abbrev pairIdx (j : ImgS.Idx) (q : Fin 2) : PairS.Idx :=
  fun a => match a with
    | ⟨0, _⟩ => ⟨(j 0).val, (j 0).isLt⟩ | ⟨1, _⟩ => ⟨(j 1).val, (j 1).isLt⟩ | ⟨2, _⟩ => ⟨(j 2).val, (j 2).isLt⟩
    | ⟨3, _⟩ => ⟨(j 3).val, (j 3).isLt⟩ | ⟨4, _⟩ => ⟨q.val, q.isLt⟩

/-- The gather read at j: the table at the two start components, each read signed and clamped into its axis. -/
theorem gather_pair_apply {α : Type} {w : Nat} (wf : GatherDims.WF TblS PairS ImgS [] [0, 1] [] [0, 1] [] 4 ![1, 1])
    (T : TblS.Idx → α) (idx : IVec PairS w) (j : ImgS.Idx) :
    Host.gather (pairDims wf) T idx j
      = T (ix2 ⟨min (idx (pairIdx j 0)).toInt.toNat (256 - 1), by omega⟩ ⟨min (idx (pairIdx j 1)).toInt.toNat (8 - 1), by omega⟩) := by
  unfold Host.gather
  congr 1
  funext a
  refine Fin.ext ?_
  show (pairDims wf).start j idx a + (pairDims wf).batchCoord j a + (pairDims wf).offCoord j a = _
  rw [GatherDims.batchCoord_eq_zero _ _ _ List.not_mem_nil,
    GatherDims.offCoord_eq_zero _ _ _ (fun h => ((GatherDims.mem_sKept _ _).mp h).1 (by
      show a ∈ ([0, 1] : List (Fin 2)); fin_cases a <;> simp))]
  simp only [Nat.add_zero]
  unfold GatherDims.start
  have ha : a = 0 ∨ a = 1 := by fin_cases a <;> simp
  rcases ha with rfl | rfl
  · rw [dif_pos (show (0 : Fin 2) ∈ (pairDims wf).startIndexMap by simp)]
    have hsi : (pairDims wf).siIdx j ⟨List.idxOf (0 : Fin 2) (pairDims wf).startIndexMap,
        List.idxOf_lt_length_iff.2 (by simp)⟩ = pairIdx j 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]; rfl
  · rw [dif_pos (show (1 : Fin 2) ∈ (pairDims wf).startIndexMap by simp)]
    have hsi : (pairDims wf).siIdx j ⟨List.idxOf (1 : Fin 2) (pairDims wf).startIndexMap,
        List.idxOf_lt_length_iff.2 (by simp)⟩ = pairIdx j 1 := by
      funext b; refine Fin.ext ?_
      match b with
      | ⟨0, _⟩ => rfl
      | ⟨1, _⟩ => rfl
      | ⟨2, _⟩ => rfl
      | ⟨3, _⟩ => rfl
      | ⟨4, _⟩ => rfl
    rw [hsi]; rfl

/-! ## The whole batch -/

/-- The result both programs compute: at pixel (b, c, h, w) the unit of x there with channel c's rows of the two
    tables. -/
def spec (x : ImgS.Idx → EReal) (P S : TblS.Idx → EReal) : ImgS.Idx → EReal :=
  fun i => pwlu (x i) (fun k => P (ix2 (i 1) k)) (fun k => S (ix2 (i 1) k))

end Cert.Pwl

end
-- ==== Proof.KernelValue.lean ====
/-
  The idealized kernel's result array.  At the ideal instance the body's arithmetic on one pixel is the
  piecewise-linear unit of the specification: its eight selections read, for region r, entry (r, channel, 0, 0) of a
  table block, which is entry (channel, r) of the 256 × 8 table the host operations built (transposed, then
  reshaped).  Grid point t writes image t of the batch, so the blocks tile the result array and it ends as the
  specification of the image batch and the two tables.
-/
import proofs.«115810_j4973572129165_1_alg».proof.Proof.FrameKernelIdeal
import proofs.«115810_j4973572129165_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal

set_option maxRecDepth 16384

noncomputable section

namespace Cert.KernelIdeal.PwlValue

open Cert.KernelIdeal Cert.KernelIdeal.Gen Cert.KernelIdeal.Pwl
open Idealize.ShloMosaic Idealize.ShloMosaic.TcCoe Idealize.SL.Sem Idealize.ShloMosaic.ValueIdx Idealize.ShloMosaic.StableHlo
open Idealize.ShloMosaic.Pipeline (Dat)

/-! ## One row of a table block, at a pixel -/

theorem zero4 : (![0, 0, 0, 0] : Fin 4 → Nat) = fun _ => 0 := funext fun a => by fin_cases a <;> rfl

/-- Row o of a table block — sliced out, its unit leading axis dropped and restored, broadcast over the image block —
    read at pixel (c, h, w) is the block's entry (o, c, 0, 0). -/
theorem row_apply (o : Nat) (ho : o < 8) (T : FVec Ideal S8x256x1x1 .f32) (hs : S8x256x1x1.Slices ![o, 0, 0, 0] S1x256x1x1)
    (h1 : S1x256x1x1.ShapeCasts S256x1x1) (h2 : S256x1x1.ShapeCasts S1x256x1x1) (hb : S1x256x1x1.Broadcasts S1x256x56x56)
    (z : Fin 1) (c : Fin 256) (h w : Fin 56) :
    broadcastTo S1x256x56x56 (shapeCast S1x256x1x1 (shapeCast S256x1x1 (extractStridedSlice S1x256x1x1 ![o, 0, 0, 0] T hs) h1) h2) hb (ix4 z c h w)
      = T (ix4 ⟨o, ho⟩ c 0 0) := by
  rw [shapeCast_shapeCast]
  rw [broadcastTo_apply _ hb (ix4 z c h w) (ix4 (0 : Fin 1) c (0 : Fin 1) (0 : Fin 1)) (fun a => by fin_cases a <;> rfl)]
  exact extractStridedSlice_apply _ T hs (ix4 (0 : Fin 1) c (0 : Fin 1) (0 : Fin 1)) (ix4 ⟨o, ho⟩ c 0 0) (fun a => by fin_cases a <;> simp)

/-! ## The body's arithmetic at a pixel -/

/-- At pixel (c, h, w) of a block the body computes the unit of the block's entry there with the rows
    k ↦ entry (k, c, 0, 0) of the two table blocks. -/
theorem pixelwise_apply (x : FVec Ideal S1x256x56x56 .f32) (fp df : FVec Ideal S8x256x1x1 .f32) (z : Fin 1) (c : Fin 256) (h w : Fin 56) :
    pixelwise (F := Ideal) x fp df (ix4 z c h w)
      = Cert.Pwl.pwlu (x (ix4 z c h w)) (fun k => fp (ix4 k c 0 0)) (fun k => df (ix4 k c 0 0)) := by
  unfold pixelwise k0_pay1 k0_pay16 k0_pay17 k0_pay10 k0_pay8 k0_pay11 k0_pay19 k0_pay5 k0_pay6
  simp only [shapeCast_self]
  simp only [addf_apply, mulf_apply, select_apply, row_apply 0 (by decide), row_apply 1 (by decide), row_apply 2 (by decide),
    row_apply 3 (by decide), row_apply 4 (by decide), row_apply 5 (by decide), row_apply 6 (by decide), row_apply 7 (by decide)]
  rfl

/-- The same for a block whose entries are an image of a batch X and whose table blocks are two tables P, S
    transposed: the specification at that image's pixel. -/
theorem point_eq (X : FVec Ideal S64x256x56x56 .f32) (P S : FVec Ideal S256x8 .f32)
    (x : FVec Ideal S1x256x56x56 .f32) (fp df : FVec Ideal S8x256x1x1 .f32) (b : Fin 64)
    (hx : ∀ j : S1x256x56x56.Idx, x j = X (ix4 b (j 1) (j 2) (j 3)))
    (hfp : ∀ (k : Fin 8) (c : Fin 256), fp (ix4 k c 0 0) = P (ix2 c k))
    (hdf : ∀ (k : Fin 8) (c : Fin 256), df (ix4 k c 0 0) = S (ix2 c k)) (j : S1x256x56x56.Idx) :
    pixelwise (F := Ideal) x fp df j = Cert.Pwl.spec X P S (ix4 b (j 1) (j 2) (j 3)) := by
  obtain ⟨z, c, h, w, rfl⟩ : ∃ (z : Fin 1) (c : Fin 256) (h w : Fin 56), j = ix4 z c h w := ⟨j 0, j 1, j 2, j 3, eq_ix4 j⟩
  rw [pixelwise_apply, hx]
  unfold Cert.Pwl.spec
  simp only [hfp, hdf]

/-- The output block after the body is the body's arithmetic of the three input blocks. -/
theorem tile_eq (x : FVec Ideal S1x256x56x56 .f32) (fp df : FVec Ideal S8x256x1x1 .f32) :
    tile (F := Ideal) x fp df = pixelwise (F := Ideal) x fp df := by
  unfold tile
  rw [View.canon_unit_zero zero4]
  simp only [View.ld_unit_zero (S := S1x256x56x56) zero4, View.ld_unit_zero (S := S8x256x1x1) zero4]

/-! ## The two tables -/

/-- The left-point table [256, 8]: column 0 is the first breakpoint value less the left slope, columns 1 … 7 the seven
    breakpoint values. -/
def pointsTab (pts : FVec Ideal S256x7 .f32) (ld : FVec Ideal S256 .f32) : FVec Ideal S256x8 .f32 :=
  concatenate S256x8 1 [⟨S256x1, broadcastInDim S256x1 ![0] bcast_S256_S256x1_0
      (subf (shapeCast S256 (extractStridedSlice S256x1 ![0, 0] pts slices_S256x7_S256x1_0_0) shapeCasts_S256x1_S256) ld)⟩,
    ⟨S256x7, pts⟩] concatenates_S256x1_S256x7_S256x8_d1

/-- The slope table [256, 8]: the left slope, the six differences of neighbouring breakpoint values, the right slope. -/
def slopesTab (pts : FVec Ideal S256x7 .f32) (ld rd : FVec Ideal S256 .f32) : FVec Ideal S256x8 .f32 :=
  concatenate S256x8 1 [⟨S256x1, broadcastInDim S256x1 ![0] bcast_S256_S256x1_0 ld⟩,
    ⟨S256x6, subf (extractStridedSlice S256x6 ![0, 1] pts slices_S256x7_S256x6_0_1) (extractStridedSlice S256x6 ![0, 0] pts slices_S256x7_S256x6_0_0)⟩,
    ⟨S256x1, broadcastInDim S256x1 ![0] bcast_S256_S256x1_0 rd⟩] concatenates_S256x1_S256x6_S256x1_S256x8_d1

/-- A table transposed to [8, 256] and reshaped to [8, 256, 1, 1], read at (k, c, 0, 0), is the table at (c, k). -/
theorem tab_apply (T : FVec Ideal S256x8 .f32) (k : Fin 8) (c : Fin 256) :
    shapeCast S8x256x1x1 (transpose S8x256 [1, 0] T transposes_S256x8_S8x256_1_0) shapeCasts_S8x256_S8x256x1x1 (ix4 k c 0 0) = T (ix2 c k) := by
  rw [shapeCast_apply _ shapeCasts_S8x256_S8x256x1x1 (ix4 k c (0 : Fin 1) (0 : Fin 1)) (ix2 k c) (by
    rw [Shape.rowMajor_val_two, Shape.rowMajor_val_four]
    show k.val * 256 + c.val = ((k.val * 256 + c.val) * 1 + 0) * 1 + 0
    omega)]
  exact transpose_ix2_apply T transposes_S256x8_S8x256_1_0 k c

variable (m : (ℓ : Loc nD τ sig) → Buf (Elt Ideal) ℓ) (ρ : Dev nD → PrngReg)

/-- What the host operations leave in the array window 1 stages: the left-point table of the arguments, transposed and
    reshaped. -/
theorem entry_points (c : Dev nD) : (V m c main_v14 : S8x256x1x1.Idx → EReal)
    = shapeCast S8x256x1x1 (transpose S8x256 [1, 0]
        (pointsTab (m ((c : Thread nD τ).loc main_arg1)) (m ((c : Thread nD τ).loc main_arg2))) transposes_S256x8_S8x256_1_0) shapeCasts_S8x256_S8x256x1x1 := by
  dsimp only [V, hostOps0]
  after_results
  rfl

/-- And in the array window 2 stages: the slope table of the arguments, transposed and reshaped. -/
theorem entry_slopes (c : Dev nD) : (V m c main_v12 : S8x256x1x1.Idx → EReal)
    = shapeCast S8x256x1x1 (transpose S8x256 [1, 0]
        (slopesTab (m ((c : Thread nD τ).loc main_arg1)) (m ((c : Thread nD τ).loc main_arg2)) (m ((c : Thread nD τ).loc main_arg3)))
        transposes_S256x8_S8x256_1_0) shapeCasts_S8x256_S8x256x1x1 := by
  dsimp only [V, hostOps0]
  after_results
  rfl

/-! ## Where each window's block sits -/

theorem idx_img : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx_points : ∀ t : Fin cfg0.N, win0_1.index t (0 : Fin 4) = 0 ∧ win0_1.index t (1 : Fin 4) = 0
    ∧ win0_1.index t (2 : Fin 4) = 0 ∧ win0_1.index t (3 : Fin 4) = 0 :=
  (by decide +kernel : ∀ t : Fin grid0.N, _)
theorem idx_slopes : ∀ t : Fin cfg0.N, win0_2.index t (0 : Fin 4) = 0 ∧ win0_2.index t (1 : Fin 4) = 0
    ∧ win0_2.index t (2 : Fin 4) = 0 ∧ win0_2.index t (3 : Fin 4) = 0 :=
  (by decide +kernel : ∀ t : Fin grid0.N, _)
theorem idx_out : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)

theorem lt64 (t : Fin cfg0.N) : t.val < 64 := by
  have h := t.isLt
  have e : cfg0.N = 64 := N_0
  omega

/-- Point t's image block is image t of the batch. -/
theorem emb_img (t : Fin cfg0.N) (j : ((cfg0.win 0).xblock (cfg0.grid.coords t)).Idx) :
    ((cfg0.win 0).blk t).view.emb j = ix4 (n0 := 64) (n1 := 256) (n2 := 56) (n3 := 56) ⟨t.val, lt64 t⟩ (j 1) (j 2) (j 3) := by
  obtain ⟨e0, e1, e2, e3⟩ := idx_img t
  funext a; apply Fin.ext
  match a with
  | ⟨0, _⟩ => show win0_0.index t (0 : Fin 4) * 1 + 1 * (j 0).val = t.val; have hj : (j 0).val < 1 := (j 0).isLt; omega
  | ⟨1, _⟩ => show win0_0.index t (1 : Fin 4) * 256 + 1 * (j 1).val = (j 1).val; omega
  | ⟨2, _⟩ => show win0_0.index t (2 : Fin 4) * 56 + 1 * (j 2).val = (j 2).val; omega
  | ⟨3, _⟩ => show win0_0.index t (3 : Fin 4) * 56 + 1 * (j 3).val = (j 3).val; omega

/-- Point t's output block is image t of the result. -/
theorem emb_out (t : Fin cfg0.N) (j : ((cfg0.win 3).xblock (cfg0.grid.coords t)).Idx) :
    ((cfg0.win 3).blk t).view.emb j = ix4 (n0 := 64) (n1 := 256) (n2 := 56) (n3 := 56) ⟨t.val, lt64 t⟩ (j 1) (j 2) (j 3) := by
  obtain ⟨e0, e1, e2, e3⟩ := idx_out t
  funext a; apply Fin.ext
  match a with
  | ⟨0, _⟩ => show win0_3.index t (0 : Fin 4) * 1 + 1 * (j 0).val = t.val; have hj : (j 0).val < 1 := (j 0).isLt; omega
  | ⟨1, _⟩ => show win0_3.index t (1 : Fin 4) * 256 + 1 * (j 1).val = (j 1).val; omega
  | ⟨2, _⟩ => show win0_3.index t (2 : Fin 4) * 56 + 1 * (j 2).val = (j 2).val; omega
  | ⟨3, _⟩ => show win0_3.index t (3 : Fin 4) * 56 + 1 * (j 3).val = (j 3).val; omega

/-- Each table's one block is the whole table array. -/
theorem emb_points (t : Fin cfg0.N) (j : ((cfg0.win 1).xblock (cfg0.grid.coords t)).Idx) :
    ((cfg0.win 1).blk t).view.emb j = ix4 (n0 := 8) (n1 := 256) (n2 := 1) (n3 := 1) (j 0) (j 1) (j 2) (j 3) := by
  obtain ⟨e0, e1, e2, e3⟩ := idx_points t
  funext a; apply Fin.ext
  match a with
  | ⟨0, _⟩ => show win0_1.index t (0 : Fin 4) * 8 + 1 * (j 0).val = (j 0).val; omega
  | ⟨1, _⟩ => show win0_1.index t (1 : Fin 4) * 256 + 1 * (j 1).val = (j 1).val; omega
  | ⟨2, _⟩ => show win0_1.index t (2 : Fin 4) * 1 + 1 * (j 2).val = (j 2).val; omega
  | ⟨3, _⟩ => show win0_1.index t (3 : Fin 4) * 1 + 1 * (j 3).val = (j 3).val; omega
theorem emb_slopes (t : Fin cfg0.N) (j : ((cfg0.win 2).xblock (cfg0.grid.coords t)).Idx) :
    ((cfg0.win 2).blk t).view.emb j = ix4 (n0 := 8) (n1 := 256) (n2 := 1) (n3 := 1) (j 0) (j 1) (j 2) (j 3) := by
  obtain ⟨e0, e1, e2, e3⟩ := idx_slopes t
  funext a; apply Fin.ext
  match a with
  | ⟨0, _⟩ => show win0_2.index t (0 : Fin 4) * 8 + 1 * (j 0).val = (j 0).val; omega
  | ⟨1, _⟩ => show win0_2.index t (1 : Fin 4) * 256 + 1 * (j 1).val = (j 1).val; omega
  | ⟨2, _⟩ => show win0_2.index t (2 : Fin 4) * 1 + 1 * (j 2).val = (j 2).val; omega
  | ⟨3, _⟩ => show win0_2.index t (3 : Fin 4) * 1 + 1 * (j 3).val = (j 3).val; omega

/-! ## The three input blocks at a point -/

theorem img_blk (c : Dev nD) (t : Fin cfg0.N) (j : S1x256x56x56.Idx) :
    iblk m c 0 t j = m ((c : Thread nD τ).loc main_arg0) (ix4 (n0 := 64) (n1 := 256) (n2 := 56) (n3 := 56) ⟨t.val, lt64 t⟩ (j 1) (j 2) (j 3)) := by
  show V m c main_arg0 (((cfg0.win 0).blk t).view.emb j) = _
  rw [emb_img t j, V_arg m c main_arg0 (.inl rfl)]

theorem points_blk (c : Dev nD) (t : Fin cfg0.N) (k : Fin 8) (ch : Fin 256) :
    iblk m c 1 t (ix4 k ch (0 : Fin 1) (0 : Fin 1))
      = pointsTab (m ((c : Thread nD τ).loc main_arg1)) (m ((c : Thread nD τ).loc main_arg2)) (ix2 ch k) := by
  show (V m c main_v14 : S8x256x1x1.Idx → EReal) (((cfg0.win 1).blk t).view.emb (ix4 k ch (0 : Fin 1) (0 : Fin 1))) = _
  rw [emb_points t, entry_points m c]
  exact tab_apply _ k ch

theorem slopes_blk (c : Dev nD) (t : Fin cfg0.N) (k : Fin 8) (ch : Fin 256) :
    iblk m c 2 t (ix4 k ch (0 : Fin 1) (0 : Fin 1))
      = slopesTab (m ((c : Thread nD τ).loc main_arg1)) (m ((c : Thread nD τ).loc main_arg2)) (m ((c : Thread nD τ).loc main_arg3)) (ix2 ch k) := by
  show (V m c main_v12 : S8x256x1x1.Idx → EReal) (((cfg0.win 2).blk t).view.emb (ix4 k ch (0 : Fin 1) (0 : Fin 1))) = _
  rw [emb_slopes t, entry_slopes m c]
  exact tab_apply _ k ch

/-! ## The result array -/

/-- The specification of the launch contents: what the result array ends holding on core c. -/
def result (c : Dev nD) : S64x256x56x56.Idx → EReal :=
  Cert.Pwl.spec (m ((c : Thread nD τ).loc main_arg0))
    (pointsTab (m ((c : Thread nD τ).loc main_arg1)) (m ((c : Thread nD τ).loc main_arg2)))
    (slopesTab (m ((c : Thread nD τ).loc main_arg1)) (m ((c : Thread nD τ).loc main_arg2)) (m ((c : Thread nD τ).loc main_arg3)))

/-- What point t writes back is image t of the specification. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after_3, tile_eq]
  funext j
  show pixelwise (F := Ideal) (iblk m c 0 t) (iblk m c 1 t) (iblk m c 2 t) j = result m c (((cfg0.win 3).blk t).view.emb j)
  rw [emb_out t j]
  exact point_eq _ _ _ (iblk m c 0 t) (iblk m c 1 t) (iblk m c 2 t) ⟨t.val, lt64 t⟩
    (fun j => img_blk m c t j) (fun k ch => points_blk m c t k ch) (fun k ch => slopes_blk m c t k ch) j

/-- An index of the result is in point t's block iff every coordinate is in the block's range. -/
theorem mem_blk (t : Fin cfg0.N) (i : S64x256x56x56.Idx) :
    i ∈ ((cfg0.win 3).blk t).view.set ↔ ∀ a : Fin 4, win0_3.index t a * S1x256x56x56.size a ≤ (i a).val
      ∧ (i a).val < win0_3.index t a * S1x256x56x56.size a + S1x256x56x56.size a := by
  show i ∈ ((View.whole main_v15).slice (win0_3.rect t)).set ↔ _
  rw [View.set_slice_whole, Rect.mem_set_unit]
  exact Iff.rfl

/-- Every index of the result is in the block of the point its image number names. -/
theorem cover (i : S64x256x56x56.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 56 := (i 2).isLt
  have hi3 : (i 3).val < 56 := (i 3).isLt
  obtain ⟨t, ht⟩ : ∃ t : Fin cfg0.N, t.val = (i 0).val := ⟨⟨(i 0).val, by rw [show cfg0.N = 64 from N_0]; exact hi0⟩, rfl⟩
  obtain ⟨e0, e1, e2, e3⟩ := idx_out t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 256 ≤ (i 1).val ∧ (i 1).val < win0_3.index t (1 : Fin 4) * 256 + 256; omega
  | ⟨2, _⟩ => show win0_3.index t (2 : Fin 4) * 56 ≤ (i 2).val ∧ (i 2).val < win0_3.index t (2 : Fin 4) * 56 + 56; omega
  | ⟨3, _⟩ => show win0_3.index t (3 : Fin 4) * 56 ≤ (i 3).val ∧ (i 3).val < win0_3.index t (3 : Fin 4) * 56 + 56; omega

/-- The result array after the run. -/
theorem final (c : Dev nD) : (dats m 0 c).arrAt 3 cfg0.N = result m c :=
  (dats m 0 c).arrAt_eq_of_cover 3 (result m c) (fun t _ => flushed_eq m c t) cover

/-- The idealized kernel runs to the end with its result at the specification and its arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c), args_kept m (dats m) (A_eq m) r h c⟩)
    (run_main m ρ)

end Cert.KernelIdeal.PwlValue

end
-- ==== Proof.RefRun.lean ====
/-
  The reference program's run and its operations read one at a time, gathered here for the modules that
  compare the reference's result with the kernel's.
-/
import proofs.«115810_j4973572129165_1_alg».proof.Proof.Gen.ReferenceIdeal.Run
import proofs.«115810_j4973572129165_1_alg».proof.Proof.Gen.ReferenceIdeal.Read
-- ==== Proof.RefValue.lean ====
/-
  The reference's result, read one operation at a time, is the specification of its arguments: its normalised
  coordinate, clip and truncation are the specification's; its two gathers read the tables at the pair (channel,
  region), both components wrapped and clamped without effect because a channel is below 256 and a region below 8;
  and the specification's eight selections at a region below 8 pick that same entry.
-/
import proofs.«115810_j4973572129165_1_alg».proof.Proof.RefRun
import proofs.«115810_j4973572129165_1_alg».proof.Proof.Spec
import Idealize.ShloMosaic.Lib.Pipeline.Value
import Idealize.ShloMosaic.Lib.ValueIdx
import Idealize.ShloMosaic.PureOps.Ideal

noncomputable section

namespace Cert.ReferenceIdeal.PwlValue

open Cert.ReferenceIdeal Cert.ReferenceIdeal.Gen Cert.ReferenceIdeal.Read
open Idealize.ShloMosaic Idealize.ShloMosaic.TcCoe Idealize.SL.Sem Idealize.ShloMosaic.ValueIdx Idealize.ShloMosaic.StableHlo

variable (x0 : (⟨S64x256x56x56, .f32⟩ : BufTy).Contents (Elt Ideal))

/-! ## One pixel's scalars -/

theorem ref_xnorm (i : S64x256x56x56.Idx) : val_main_v3 (F := Ideal) x0 i = Cert.Pwl.xnorm (x0 i) := by
  rw [val_main_v3_apply, val_main_v1_apply, val_main_v0_apply, val_main_cst_apply, val_main_v2_apply, val_main_cst_0_apply]
  rfl

theorem ref_region (i : S64x256x56x56.Idx) : val_main_v5 (F := Ideal) x0 i = Cert.Pwl.region (x0 i) := by
  rw [val_main_v5_apply, val_main_v4_apply, val_main_call0_v4_apply, val_main_call0_v3_apply, val_main_cst_2_apply,
    val_main_call0_v2_apply, val_main_call0_v1_apply, val_main_call0_v0_apply, val_main_cst_1_apply, ref_xnorm]
  rfl

/-- The offset inside the region: the normalised coordinate less the region number. -/
theorem ref_offset (i : S64x256x56x56.Idx) :
    val_main_v7 (F := Ideal) x0 i = Cert.Pwl.xnorm (x0 i) - (((Cert.Pwl.region (x0 i)).toInt : ℝ) : EReal) := by
  rw [val_main_v7_apply, val_main_v6_apply, ref_xnorm, ref_region]
  rfl

/-! ## The two start components of the gathers -/

/-- The region component: the region number, wrapped by the table's extent 8. -/
theorem ref_wrap_region (i : S64x256x56x56.Idx) :
    val_main_v30 (F := Ideal) x0 i = Cert.Pwl.wrap (Cert.Pwl.region (x0 i)) 8#32 := by
  rw [val_main_v30_apply, val_main_v27_apply, val_main_v29_apply, val_main_v26_apply, val_main_c_4_apply, val_main_v28_apply,
    val_main_c_5_apply, ref_region]
  rfl

/-- The channel component: the channel's number, wrapped by the table's extent 256. -/
theorem ref_wrap_channel (j : S1x256x1x1.Idx) :
    val_main_v25 (F := Ideal) j = Cert.Pwl.wrap (BitVec.ofNat 32 (j 1).val) 256#32 := by
  rw [val_main_v25_apply, val_main_v22_apply, val_main_v24_apply, val_main_v20_apply, val_main_v19_apply, val_main_v21_apply,
    val_main_c_apply, val_main_v23_apply, val_main_c_3_apply]
  rfl

/-- The index array at a pixel, component 0. -/
theorem start_channel (i : S64x256x56x56.Idx) :
    val_main_v34 (F := Ideal) x0 (Cert.Pwl.pairIdx i 0) = Cert.Pwl.wrap (BitVec.ofNat 32 (i 1).val) 256#32 := by
  unfold val_main_v34
  rw [concatenate_pair_apply_left _ _ _ concatenates_S64x256x56x56x1_S64x256x56x56x1_S64x256x56x56x2_d4 (Cert.Pwl.pairIdx i 0) rfl
    (ix5 (i 0) (i 1) (i 2) (i 3) (0 : Fin 1)) (fun b => by fin_cases b <;> rfl)]
  rw [val_main_v32_apply, val_main_v31_apply, ref_wrap_channel]

/-- The index array at a pixel, component 1. -/
theorem start_region (i : S64x256x56x56.Idx) :
    val_main_v34 (F := Ideal) x0 (Cert.Pwl.pairIdx i 1) = Cert.Pwl.wrap (Cert.Pwl.region (x0 i)) 8#32 := by
  unfold val_main_v34
  rw [concatenate_pair_apply_right _ _ _ concatenates_S64x256x56x56x1_S64x256x56x56x1_S64x256x56x56x2_d4 (Cert.Pwl.pairIdx i 1) rfl rfl
    (ix5 (i 0) (i 1) (i 2) (i 3) (0 : Fin 1)) (fun b hb => by fin_cases b <;> first | rfl | exact absurd rfl hb) rfl]
  rw [val_main_v33_apply, ref_wrap_region]
  rw [show idx_main_v33 (ix5 (i 0) (i 1) (i 2) (i 3) (0 : Fin 1)) = i from funext fun a => by fin_cases a <;> rfl]

/-! ## A gather is the eight selections -/

/-- Gathering a table at the index array reads, at a pixel, what the eight selections over the pixel's channel row
    read at the pixel's region. -/
theorem lookup (T : (⟨S256x8, .f32⟩ : BufTy).Contents (Elt Ideal)) (i : S64x256x56x56.Idx) :
    Host.gather gather_S256x8_S64x256x56x56x2_S64x256x56x56_n_01_n_n_01_4_11 T (val_main_v34 (F := Ideal) x0) i
      = Cert.Pwl.chain (Cert.Pwl.region (x0 i)) (fun k => T (ix2 (i 1) k)) := by
  obtain ⟨k, hk⟩ := Cert.Pwl.region_lt8 (x0 i)
  rw [hk, Cert.Pwl.chain_ofNat]
  refine (Cert.Pwl.gather_pair_apply gather_S256x8_S64x256x56x56x2_S64x256x56x56_n_01_n_n_01_4_11_wf T (val_main_v34 (F := Ideal) x0) i).trans ?_
  congr 1
  refine Shape.idx_ext₂ ?_ ?_
  · show min (val_main_v34 (F := Ideal) x0 (Cert.Pwl.pairIdx i 0)).toInt.toNat (256 - 1) = (i 1).val
    rw [start_channel]; exact Cert.Pwl.wrap_channel (i 1)
  · show min (val_main_v34 (F := Ideal) x0 (Cert.Pwl.pairIdx i 1)).toInt.toNat (8 - 1) = k.val
    rw [start_region, hk]; exact Cert.Pwl.wrap_region k

/-- The second gather's index array is built by the same operations as the first's. -/
theorem second_index : val_main_v49 (F := Ideal) x0 = val_main_v34 (F := Ideal) x0 := rfl

/-! ## The result -/

/-- The reference's result is the specification of the image batch and the two tables it builds. -/
theorem ref_eq (x1 : (⟨S256x7, .f32⟩ : BufTy).Contents (Elt Ideal)) (x2 x3 : (⟨S256, .f32⟩ : BufTy).Contents (Elt Ideal)) :
    val_main_v52 (F := Ideal) x0 x1 x2 x3
      = Cert.Pwl.spec x0 (val_main_v18 (F := Ideal) x1 x2) (val_main_v13 (F := Ideal) x1 x2 x3) := by
  funext i
  rw [val_main_v52_apply, val_main_v51_apply, ref_offset]
  unfold val_main_v35 val_main_v50
  rw [second_index, lookup, lookup]
  rfl

end Cert.ReferenceIdeal.PwlValue

end
-- ==== Proof.lean ====
/-
  The certificate of the piecewise-linear unit kernel against its jnp reference.

  Both programs normalise a pixel, clip it into [0, 7.007], truncate it to a region number and return
  left point + offset · slope with the two table entries of the pixel's channel and region; the kernel selects the
  entries by eight comparisons of the region number, the reference gathers them.  Since the clipped value is a real
  number in [0, 8), the region number is one of 0, …, 7 for EVERY extended-real pixel, so the selections and the
  gather read the same entry and the two results are equal index by index, with no use of the inputs' finiteness.

  The frames: each kernel program is host operations and one pipelined region whose body reads its three blocks
  whole and stores the output block whole (Proof/FrameKernel.lean, Proof/FrameKernelIdeal.lean); the reference is
  host operations only, and its frame is its run with the result dropped.  The idealization rewrote nothing, so
  `preserves` has no conjunct.
-/
import proofs.«115810_j4973572129165_1_alg».proof.Defs
import proofs.«115810_j4973572129165_1_alg».proof.Proof.Gen.Kernel
import proofs.«115810_j4973572129165_1_alg».proof.Proof.Gen.KernelIdeal
import proofs.«115810_j4973572129165_1_alg».proof.Proof.Gen.ReferenceIdeal
import proofs.«115810_j4973572129165_1_alg».proof.Proof.Gen.Pre_finite_inputs
import proofs.«115810_j4973572129165_1_alg».proof.Proof.FrameKernel
import proofs.«115810_j4973572129165_1_alg».proof.Proof.FrameKernelIdeal
import proofs.«115810_j4973572129165_1_alg».proof.Proof.KernelValue
import proofs.«115810_j4973572129165_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Pwl.frame m ρ

theorem frame_kernel_ideal : Cert.frame_KernelIdeal := fun m ρ _ => Cert.KernelIdeal.Pwl.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealized kernel ends with its result at the specification of its arguments, the reference with its result at the
    specification of its own; the arguments agree and the two tables are built by the same operations. -/
theorem algebraic : Cert.algebraic_KernelIdeal_ReferenceIdeal := by
  intro m ρ m' ρ' _ hagree
  refine ⟨fun c => Cert.KernelIdeal.PwlValue.result m c, Cert.KernelIdeal.PwlValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.PwlValue.ref_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
